-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S32x16 : Shape := ⟨2, ![32, 16]⟩
abbrev S32x1024x1024 : Shape := ⟨3, ![32, 1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts]

def fn {F : FTy → Type} [FloatOps F] (main_arg0 : FVec F S4096x1024 .f32) (main_arg1 : FVec F S32x16 .f32) (main_arg2 : FVec F S32x1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S32x16 .f32 := Host.absf main_arg1
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_c_1 : IVec S_ 1 := constantI S_ 1 1#1
  let main_v7 : IVec S_ 1 := (fun x v => Host.reduce IntOp.andi x v reducesTo_S32x16_S_d0_1 h_S_) main_v6 main_c_1
  let main_v8 : IVec S_ 1 := andi main_v3 main_v7
  let main_v9 : FVec F S32x1024x1024 .f32 := Host.absf main_arg2
  let main_cst_2 : FVec F S_ .f32 := constant S_ .f32 0x7F800000#32
  let main_v10 : FVec F S32x1024x1024 .f32 := broadcastInDim S32x1024x1024 ![] bcast_S_S32x1024x1024 main_cst_2
  let main_v11 : IVec S32x1024x1024 1 := cmpf .olt main_v9 main_v10
  let main_c_3 : IVec S_ 1 := constantI S_ 1 1#1
  let main_v12 : IVec S_ 1 := (fun x v => Host.reduce IntOp.andi x v reducesTo_S32x1024x1024_S_d0_1_2 h_S_) main_v11 main_c_3
  let main_v13 : IVec S_ 1 := andi main_v8 main_v12
  main_v13
-- ==== Kernel.lean ====
abbrev S4096x1024 : Shape := ⟨2, ![4096, 1024]⟩
abbrev S32x16 : Shape := ⟨2, ![32, 16]⟩
abbrev S32x1024x1024 : Shape := ⟨3, ![32, 1024, 1024]⟩
abbrev S16x1024x1024 : Shape := ⟨3, ![16, 1024, 1024]⟩
abbrev S32x32x1024 : Shape := ⟨3, ![32, 32, 1024]⟩
abbrev S16x32x1024 : Shape := ⟨3, ![16, 32, 1024]⟩
abbrev S32x32768 : Shape := ⟨2, ![32, 32768]⟩
abbrev S16x32768 : Shape := ⟨2, ![16, 32768]⟩
abbrev S4096x1024x16 : Shape := ⟨3, ![4096, 1024, 16]⟩
abbrev S256x1024 : Shape := ⟨2, ![256, 1024]⟩
abbrev S16x128x1024 : Shape := ⟨3, ![16, 128, 1024]⟩
abbrev S256x128x16 : Shape := ⟨3, ![256, 128, 16]⟩
abbrev S1x128x1024 : Shape := ⟨3, ![1, 128, 1024]⟩
abbrev S128x1024 : Shape := ⟨2, ![128, 1024]⟩
abbrev S256x128 : Shape := ⟨2, ![256, 128]⟩
abbrev S256x128x1 : Shape := ⟨3, ![256, 128, 1]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S32x16, .f32⟩
  | .hbm, ⟨2, _⟩ => ⟨S32x1024x1024, .f32⟩
  | .hbm, ⟨3, _⟩ => ⟨S16x1024x1024, .bf16⟩
  | .hbm, ⟨4, _⟩ => ⟨S4096x1024x16, .f32⟩
  | .local _ .vmem, ⟨0, _⟩ => ⟨S32x32x1024, .f32⟩
  | .local _ .vmem, ⟨1, _⟩ => ⟨S32x32x1024, .f32⟩
  | .local _ .vmem, ⟨2, _⟩ => ⟨S32x16, .f32⟩
  | .local _ .vmem, ⟨3, _⟩ => ⟨S16x32x1024, .bf16⟩
  | .local _ .vmem, ⟨4, _⟩ => ⟨S16x32x1024, .bf16⟩
  | .local _ .vmem, ⟨5, _⟩ => ⟨S256x1024, .f32⟩
  | .local _ .vmem, ⟨6, _⟩ => ⟨S256x1024, .f32⟩
  | .local _ .vmem, ⟨7, _⟩ => ⟨S16x128x1024, .bf16⟩
  | .local _ .vmem, ⟨8, _⟩ => ⟨S16x128x1024, .bf16⟩
  | .local _ .vmem, ⟨9, _⟩ => ⟨S256x128x16, .f32⟩
  | .local _ .vmem, ⟨10, _⟩ => ⟨S256x128x16, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S16x128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x128x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S32x32x1024_S32x32x1024_0_0_0 : ∀ a, (![0, 0, 0] : Fin 3 → Nat) a + S32x32x1024.size a ≤ S32x32x1024.size a
  h_S32x32x1024 : 0 < S32x32x1024.numel
  bitsLt_bf16_f32 : FTy.bits .bf16 < FTy.bits .f32
  shapeCasts_S32x32x1024_S32x32768 : S32x32x1024.ShapeCasts S32x32768
  inb_S32x16_S32x16_0_0 : ∀ a, (![0, 0] : Fin 2 → Nat) a + S32x16.size a ≤ S32x16.size a
  h_S32x16 : 0 < S32x16.numel
  shapeCasts_S16x32768_S16x32x1024 : S16x32768.ShapeCasts S16x32x1024
  inb_S16x32x1024_S16x32x1024_0_0_0 : ∀ a, (![0, 0, 0] : Fin 3 → Nat) a + S16x32x1024.size a ≤ S16x32x1024.size a
  h_S16x32x1024 : 0 < S16x32x1024.numel
  packedbf16_S16x32x1024_S16x32x1024_0_0_0 : (Rect.unit (s := S16x32x1024) ![0, 0, 0] S16x32x1024.size inb_S16x32x1024_S16x32x1024_0_0_0).PackedRows (EltTy.packing .bf16)
  inb_S256x1024_S256x1024_0_0 : ∀ a, (![0, 0] : Fin 2 → Nat) a + S256x1024.size a ≤ S256x1024.size a
  h_S256x1024 : 0 < S256x1024.numel
  inb_S16x128x1024_S1x128x1024_0_0_0 : ∀ a, (![0, 0, 0] : Fin 3 → Nat) a + S1x128x1024.size a ≤ S16x128x1024.size a
  h_S1x128x1024 : 0 < S1x128x1024.numel
  shapeCasts_S1x128x1024_S128x1024 : S1x128x1024.ShapeCasts S128x1024
  inb_S256x128x16_S256x128x1_0_0_0 : ∀ a, (![0, 0, 0] : Fin 3 → Nat) a + S256x128x1.size a ≤ S256x128x16.size a
  h_S256x128x1 : 0 < S256x128x1.numel
  shapeCasts_S256x128x1_S256x128 : S256x128x1.ShapeCasts S256x128
  shapeCasts_S256x128_S256x128x1 : S256x128.ShapeCasts S256x128x1
  inb_S16x128x1024_S1x128x1024_1_0_0 : ∀ a, (![1, 0, 0] : Fin 3 → Nat) a + S1x128x1024.size a ≤ S16x128x1024.size a
  inb_S256x128x16_S256x128x1_0_0_1 : ∀ a, (![0, 0, 1] : Fin 3 → Nat) a + S256x128x1.size a ≤ S256x128x16.size a
  inb_S16x128x1024_S1x128x1024_2_0_0 : ∀ a, (![2, 0, 0] : Fin 3 → Nat) a + S1x128x1024.size a ≤ S16x128x1024.size a
  inb_S256x128x16_S256x128x1_0_0_2 : ∀ a, (![0, 0, 2] : Fin 3 → Nat) a + S256x128x1.size a ≤ S256x128x16.size a
  inb_S16x128x1024_S1x128x1024_3_0_0 : ∀ a, (![3, 0, 0] : Fin 3 → Nat) a + S1x128x1024.size a ≤ S16x128x1024.size a
  inb_S256x128x16_S256x128x1_0_0_3 : ∀ a, (![0, 0, 3] : Fin 3 → Nat) a + S256x128x1.size a ≤ S256x128x16.size a
  inb_S16x128x1024_S1x128x1024_4_0_0 : ∀ a, (![4, 0, 0] : Fin 3 → Nat) a + S1x128x1024.size a ≤ S16x128x1024.size a
  inb_S256x128x16_S256x128x1_0_0_4 : ∀ a, (![0, 0, 4] : Fin 3 → Nat) a + S256x128x1.size a ≤ S256x128x16.size a
  inb_S16x128x1024_S1x128x1024_5_0_0 : ∀ a, (![5, 0, 0] : Fin 3 → Nat) a + S1x128x1024.size a ≤ S16x128x1024.size a
  inb_S256x128x16_S256x128x1_0_0_5 : ∀ a, (![0, 0, 5] : Fin 3 → Nat) a + S256x128x1.size a ≤ S256x128x16.size a
  inb_S16x128x1024_S1x128x1024_6_0_0 : ∀ a, (![6, 0, 0] : Fin 3 → Nat) a + S1x128x1024.size a ≤ S16x128x1024.size a
  inb_S256x128x16_S256x128x1_0_0_6 : ∀ a, (![0, 0, 6] : Fin 3 → Nat) a + S256x128x1.size a ≤ S256x128x16.size a
  inb_S16x128x1024_S1x128x1024_7_0_0 : ∀ a, (![7, 0, 0] : Fin 3 → Nat) a + S1x128x1024.size a ≤ S16x128x1024.size a
  inb_S256x128x16_S256x128x1_0_0_7 : ∀ a, (![0, 0, 7] : Fin 3 → Nat) a + S256x128x1.size a ≤ S256x128x16.size a
  inb_S16x128x1024_S1x128x1024_8_0_0 : ∀ a, (![8, 0, 0] : Fin 3 → Nat) a + S1x128x1024.size a ≤ S16x128x1024.size a
  inb_S256x128x16_S256x128x1_0_0_8 : ∀ a, (![0, 0, 8] : Fin 3 → Nat) a + S256x128x1.size a ≤ S256x128x16.size a
  inb_S16x128x1024_S1x128x1024_9_0_0 : ∀ a, (![9, 0, 0] : Fin 3 → Nat) a + S1x128x1024.size a ≤ S16x128x1024.size a
  inb_S256x128x16_S256x128x1_0_0_9 : ∀ a, (![0, 0, 9] : Fin 3 → Nat) a + S256x128x1.size a ≤ S256x128x16.size a
  inb_S16x128x1024_S1x128x1024_10_0_0 : ∀ a, (![10, 0, 0] : Fin 3 → Nat) a + S1x128x1024.size a ≤ S16x128x1024.size a
  inb_S256x128x16_S256x128x1_0_0_10 : ∀ a, (![0, 0, 10] : Fin 3 → Nat) a + S256x128x1.size a ≤ S256x128x16.size a
  inb_S16x128x1024_S1x128x1024_11_0_0 : ∀ a, (![11, 0, 0] : Fin 3 → Nat) a + S1x128x1024.size a ≤ S16x128x1024.size a
  inb_S256x128x16_S256x128x1_0_0_11 : ∀ a, (![0, 0, 11] : Fin 3 → Nat) a + S256x128x1.size a ≤ S256x128x16.size a
  inb_S16x128x1024_S1x128x1024_12_0_0 : ∀ a, (![12, 0, 0] : Fin 3 → Nat) a + S1x128x1024.size a ≤ S16x128x1024.size a
  inb_S256x128x16_S256x128x1_0_0_12 : ∀ a, (![0, 0, 12] : Fin 3 → Nat) a + S256x128x1.size a ≤ S256x128x16.size a
  inb_S16x128x1024_S1x128x1024_13_0_0 : ∀ a, (![13, 0, 0] : Fin 3 → Nat) a + S1x128x1024.size a ≤ S16x128x1024.size a
  inb_S256x128x16_S256x128x1_0_0_13 : ∀ a, (![0, 0, 13] : Fin 3 → Nat) a + S256x128x1.size a ≤ S256x128x16.size a
  inb_S16x128x1024_S1x128x1024_14_0_0 : ∀ a, (![14, 0, 0] : Fin 3 → Nat) a + S1x128x1024.size a ≤ S16x128x1024.size a
  inb_S256x128x16_S256x128x1_0_0_14 : ∀ a, (![0, 0, 14] : Fin 3 → Nat) a + S256x128x1.size a ≤ S256x128x16.size a
  inb_S16x128x1024_S1x128x1024_15_0_0 : ∀ a, (![15, 0, 0] : Fin 3 → Nat) a + S1x128x1024.size a ≤ S16x128x1024.size a
  inb_S256x128x16_S256x128x1_0_0_15 : ∀ a, (![0, 0, 15] : Fin 3 → Nat) a + S256x128x1.size a ≤ S256x128x16.size a
  dot_S32x16_S32x32768_S16x32768_0_0_1_1_n_n_wf : DotDims.WF S32x16 S32x32768 S16x32768 [0] [0] [1] [1] [] []
  dot_S256x1024_S128x1024_S256x128_1_1_0_0_n_n_wf : DotDims.WF S256x1024 S128x1024 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x1024.size a ≤ S32x1024x1024.size a
  hwx0_0 : ∀ i : grid0.Coords, EltTy.bits .f32 = 32 ∨ (Rect.block (s := S32x1024x1024) S32x32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16.size a ≤ S32x16.size a
  hwx0_1 : ∀ i : grid0.Coords, EltTy.bits .f32 = 32 ∨ (Rect.block (s := S32x16) S32x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x32x1024.size a ≤ S16x1024x1024.size a
  hwx0_2 : ∀ i : grid0.Coords, EltTy.bits .bf16 = 32 ∨ (Rect.block (s := S16x1024x1024) S16x32x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .f32 = 32 ∨ (Rect.block (s := S4096x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128x1024.size a ≤ S16x1024x1024.size a
  hwx1_1 : ∀ i : grid1.Coords, EltTy.bits .bf16 = 32 ∨ (Rect.block (s := S16x1024x1024) S16x128x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128x16.size a ≤ S4096x1024x16.size a
  hwx1_2 : ∀ i : grid1.Coords, EltTy.bits .f32 = 32 ∨ (Rect.block (s := S4096x1024x16) S256x128x16.size (cc1_transform_2 i) (hinb1_2 i)).WholeWords (EltTy.packing .f32)

variable [Facts₀]

def dot_S32x16_S32x32768_S16x32768_0_0_1_1_n_n : DotDims S32x16 S32x32768 S16x32768 where
  lhsContracting := [0]
  rhsContracting := [0]
  lhsNonContracting := [1]
  rhsNonContracting := [1]
  lhsBatch := []
  rhsBatch := []
  wf := dot_S32x16_S32x32768_S16x32768_0_0_1_1_n_n_wf
def dot_S256x1024_S128x1024_S256x128_1_1_0_0_n_n : DotDims S256x1024 S128x1024 S256x128 where
  lhsContracting := [1]
  rhsContracting := [1]
  lhsNonContracting := [0]
  rhsNonContracting := [0]
  lhsBatch := []
  rhsBatch := []
  wf := dot_S256x1024_S128x1024_S256x128_1_1_0_0_n_n_wf

abbrev win0_0 : Pipeline.Window sig grid0 :=
  Pipeline.Window.ofSpec (Memref.whole main_arg2) S32x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x32x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16x128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x128x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S32x16 : Shape := ⟨2, ![32, 16]⟩
abbrev S32x1024x1024 : Shape := ⟨3, ![32, 1024, 1024]⟩
abbrev S32x1048576 : Shape := ⟨2, ![32, 1048576]⟩
abbrev S16x1048576 : Shape := ⟨2, ![16, 1048576]⟩
abbrev S16x1024x1024 : Shape := ⟨3, ![16, 1024, 1024]⟩
abbrev S4096x16x1024 : Shape := ⟨3, ![4096, 16, 1024]⟩
abbrev S4096x1024x16 : Shape := ⟨3, ![4096, 1024, 16]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S32x16, .f32⟩
  | .hbm, ⟨2, _⟩ => ⟨S32x1024x1024, .f32⟩
  | .hbm, ⟨3, _⟩ => ⟨S32x1048576, .f32⟩
  | .hbm, ⟨4, _⟩ => ⟨S16x1048576, .f32⟩
  | .hbm, ⟨5, _⟩ => ⟨S16x1024x1024, .f32⟩
  | .hbm, ⟨6, _⟩ => ⟨S4096x16x1024, .f32⟩
  | .hbm, ⟨7, _⟩ => ⟨S4096x1024x16, .f32⟩
  | .hbm, ⟨8, _⟩ => ⟨S4096x1024x16, .f32⟩
  | .hbm, ⟨9, _⟩ => ⟨S4096x1024x16, .f32⟩
  | .hbm, ⟨10, _⟩ => ⟨S_, .f32⟩
  | .hbm, ⟨11, _⟩ => ⟨S4096x1024x16, .f32⟩
  | .hbm, ⟨12, _⟩ => ⟨S4096x1024x16, .f32⟩
  | .hbm, ⟨13, _⟩ => ⟨S_, .f32⟩
  | .hbm, ⟨14, _⟩ => ⟨S4096x1024x16, .f32⟩
  | .hbm, ⟨15, _⟩ => ⟨S4096x1024x16, .f32⟩
  | .hbm, ⟨16, _⟩ => ⟨S4096x1024x16, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S32x1024x1024_S32x1048576 : S32x1024x1024.ShapeCasts S32x1048576
  shapeCasts_S16x1048576_S16x1024x1024 : S16x1048576.ShapeCasts S16x1024x1024
  transposes_S4096x16x1024_S4096x1024x16_0_2_1 : S4096x16x1024.Transposes [0, 2, 1] S4096x1024x16
  bcast_S_S4096x1024x16 : S_.BroadcastsInDim S4096x1024x16 (![] : Fin 0 → Fin S4096x1024x16.rank)
  dot_S32x16_S32x1048576_S16x1048576_0_0_1_1_n_n_wf : DotDims.WF S32x16 S32x1048576 S16x1048576 [0] [0] [1] [1] [] []
  dot_S4096x1024_S16x1024x1024_S4096x16x1024_1_2_0_01_n_n_wf : DotDims.WF S4096x1024 S16x1024x1024 S4096x16x1024 [1] [2] [0] [0, 1] [] []

variable [Facts₀]

def dot_S32x16_S32x1048576_S16x1048576_0_0_1_1_n_n : DotDims S32x16 S32x1048576 S16x1048576 where
  lhsContracting := [0]
  rhsContracting := [0]
  lhsNonContracting := [1]
  rhsNonContracting := [1]
  lhsBatch := []
  rhsBatch := []
  wf := dot_S32x16_S32x1048576_S16x1048576_0_0_1_1_n_n_wf
def dot_S4096x1024_S16x1024x1024_S4096x16x1024_1_2_0_01_n_n : DotDims S4096x1024 S16x1024x1024 S4096x16x1024 where
  lhsContracting := [1]
  rhsContracting := [2]
  lhsNonContracting := [0]
  rhsNonContracting := [0, 1]
  lhsBatch := []
  rhsBatch := []
  wf := dot_S4096x1024_S16x1024x1024_S4096x16x1024_1_2_0_01_n_n_wf

class Facts : Prop extends Facts₀ where

variable [Facts]
-- ==== Proof.Spec.lean ====
/-
  What both programs compute, over the extended reals, as functions of the three argument arrays
  x : [4096, 1024], params : [32, 16], transformations : [32, 1024, 1024]:

    filter e i j  =  Σ_p  params[p, e] · transformations[p, i, j]          (16 generated filters, each 1024 × 1024)
    lin b i e     =  Σ_j  x[b, j] · filter e i j                           (every filter applied to every row of x)
    out[b, i, e]  =  swish (lin b i e),      swish s = s · 1 / (1 + e^(-s)).

  Nothing here depends on either program: the shapes are spelt out as literals, the sums range over Fin 32 and
  Fin 1024, and the factors of each product stand in the order both programs multiply them in, so no law of the
  extended reals beyond "equal summands give equal sums" is ever needed.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- s · σ(s) with σ(s) = 1 / (1 + e^(-s)) on the extended reals. -/
def swish (s : EReal) : EReal := s * Ideal.logistic s

/-- Entry (e, i, j) of the generated filters: the e-th combination of the 32 transformation matrices. -/
def filtAt (p : (⟨2, ![32, 16]⟩ : Shape).Idx → EReal) (t : (⟨3, ![32, 1024, 1024]⟩ : Shape).Idx → EReal)
    (e : Fin 16) (i j : Fin 1024) : EReal :=
  ∑ k : Fin 32, p (ix2 k e) * t (ix3 k i j)

/-- The filters as one array [16, 1024, 1024]. -/
def filt (p : (⟨2, ![32, 16]⟩ : Shape).Idx → EReal) (t : (⟨3, ![32, 1024, 1024]⟩ : Shape).Idx → EReal) :
    (⟨3, ![16, 1024, 1024]⟩ : Shape).Idx → EReal :=
  fun q => filtAt p t (q 0) (q 1) (q 2)

/-- Row b of x against row i of filter e. -/
def linAt (x : (⟨2, ![4096, 1024]⟩ : Shape).Idx → EReal) (f : (⟨3, ![16, 1024, 1024]⟩ : Shape).Idx → EReal)
    (b : Fin 4096) (i : Fin 1024) (e : Fin 16) : EReal :=
  ∑ j : Fin 1024, x (ix2 b j) * f (ix3 e i j)

/-- The result array [4096, 1024, 16] from x and an array of filters. -/
def out (x : (⟨2, ![4096, 1024]⟩ : Shape).Idx → EReal) (f : (⟨3, ![16, 1024, 1024]⟩ : Shape).Idx → EReal) :
    (⟨3, ![4096, 1024, 16]⟩ : Shape).Idx → EReal :=
  fun q => swish (linAt x f (q 0) (q 1) (q 2))

theorem filt_apply (p : (⟨2, ![32, 16]⟩ : Shape).Idx → EReal) (t : (⟨3, ![32, 1024, 1024]⟩ : Shape).Idx → EReal)
    (e : Fin 16) (i j : Fin 1024) : filt p t (ix3 e i j) = filtAt p t e i j := rfl

theorem out_apply (x : (⟨2, ![4096, 1024]⟩ : Shape).Idx → EReal) (f : (⟨3, ![16, 1024, 1024]⟩ : Shape).Idx → EReal)
    (b : Fin 4096) (i : Fin 1024) (e : Fin 16) : out x f (ix3 b i e) = swish (linAt x f b i e) := rfl

/-- The f32 word of 1.0 is the extended real 1. -/
theorem ofBits_one_f32 : Ideal.ofBits .f32 0x3F800000#32 = 1 := by
  simp [Ideal.ofBits, Ideal.ieee, -EReal.coe_mul]; norm_num

/-- The sigmoid spelt out with a quotient, a sum and an exponential IS the one-operation sigmoid. -/
theorem swish_spelt (s : EReal) :
    s * Ideal.div (Ideal.ofBits .f32 0x3F800000#32) (Ideal.ofBits .f32 0x3F800000#32 + Ideal.exp (-s)) = swish s := by
  rw [ofBits_one_f32]; rfl

end Cert.Spec

end
-- ==== Proof.FilterValue.lean ====
/-
  What the first region leaves in the filters array. At grid point t the body reads rows 32 t .. 32 t + 31 of every
  transformation matrix (a block [32, 32, 1024]) and all of params, flattens each matrix's 32 rows to one row of 32768
  entries, contracts the 32 matrices against the 32 rows of params, folds the 32768 entries back to [32, 1024], and writes
  the block [16, 32, 1024] to rows 32 t .. 32 t + 31 of every filter. Entry (e, r, j) of that block is
      Σ_p params[p, e] · block[p, r, j],
  which is entry (e, 32 t + r, j) of the specification's filters; the 32 blocks tile the array, so after the region
  the array IS the specification's filters of the arguments as the region found them.
-/
import proofs.«154010_j90958817394732_1_alg».proof.Proof.Gen.KernelIdeal.Frame
import proofs.«154010_j90958817394732_1_alg».proof.Proof.Spec
import Idealize.ShloMosaic.Lib.Pipeline.Value
import Idealize.ShloMosaic.Lib.ValueIdx
import Idealize.ShloMosaic.PureOps.Ideal.Laws

noncomputable section

namespace Cert.KernelIdeal.FilterValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's contraction at an index -/

theorem lhs_axis0 (i : S16x32768.Idx) (q : dot_S32x16_S32x32768_S16x32768_0_0_1_1_n_n.contr.Idx) :
    (dot_S32x16_S32x32768_S16x32768_0_0_1_1_n_n.lhsIdx i q 0).val = (q ⟨0, by decide⟩).val :=
  dot_S32x16_S32x32768_S16x32768_0_0_1_1_n_n.lhsIdx_val_of_single rfl i q
theorem lhs_axis1 (i : S16x32768.Idx) (q : dot_S32x16_S32x32768_S16x32768_0_0_1_1_n_n.contr.Idx) :
    (dot_S32x16_S32x32768_S16x32768_0_0_1_1_n_n.lhsIdx i q 1).val = (i 0).val := by
  unfold DotDims.lhsIdx
  rw [dif_neg (show ¬(1 : Fin S32x16.rank) ∈ dot_S32x16_S32x32768_S16x32768_0_0_1_1_n_n.lhsBatch by decide), dif_pos (show (1 : Fin S32x16.rank) ∈ dot_S32x16_S32x32768_S16x32768_0_0_1_1_n_n.lhsNonContracting by decide)]
  rfl
theorem rhs_axis0 (i : S16x32768.Idx) (q : dot_S32x16_S32x32768_S16x32768_0_0_1_1_n_n.contr.Idx) :
    (dot_S32x16_S32x32768_S16x32768_0_0_1_1_n_n.rhsIdx i q 0).val = (q ⟨0, by decide⟩).val :=
  dot_S32x16_S32x32768_S16x32768_0_0_1_1_n_n.rhsIdx_val_of_single rfl i q
theorem rhs_axis1 (i : S16x32768.Idx) (q : dot_S32x16_S32x32768_S16x32768_0_0_1_1_n_n.contr.Idx) :
    (dot_S32x16_S32x32768_S16x32768_0_0_1_1_n_n.rhsIdx i q 1).val = (i 1).val := by
  unfold DotDims.rhsIdx
  rw [dif_neg (show ¬(1 : Fin S32x32768.rank) ∈ dot_S32x16_S32x32768_S16x32768_0_0_1_1_n_n.rhsBatch by decide), dif_pos (show (1 : Fin S32x32768.rank) ∈ dot_S32x16_S32x32768_S16x32768_0_0_1_1_n_n.rhsNonContracting by decide)]
  rfl

/-- The body's product into a zero accumulator: entry (e, q) is the sum over the 32 contracted rows. -/
theorem contraction_apply (l : FVec Ideal S32x16 .bf16) (r : FVec Ideal S32x32768 .bf16) (e : Fin 16) (q : Fin 32768) :
    matmul (F := Ideal) dot_S32x16_S32x32768_S16x32768_0_0_1_1_n_n none l r (constant S16x32768 .f32 0x00000000#32) (ix2 e q)
      = ∑ k : Fin 32, l (ix2 k e) * r (ix2 k q) := by
  simp only [matmul]
  rw [Ideal.matmul_constant_zero_apply, ← Equiv.sum_comp (ValueIdx.contrEquiv1 dot_S32x16_S32x32768_S16x32768_0_0_1_1_n_n 32 rfl rfl).symm]
  refine Finset.sum_congr rfl fun k _ => ?_
  have hk := ValueIdx.contrEquiv1_symm_val dot_S32x16_S32x32768_S16x32768_0_0_1_1_n_n 32 rfl rfl k
  have el : dot_S32x16_S32x32768_S16x32768_0_0_1_1_n_n.lhsIdx (ix2 e q) ((ValueIdx.contrEquiv1 dot_S32x16_S32x32768_S16x32768_0_0_1_1_n_n 32 rfl rfl).symm k) = ix2 k e := funext fun a => Fin.ext (by
    match a with
    | ⟨0, _⟩ => exact (lhs_axis0 _ _).trans hk
    | ⟨1, _⟩ => exact lhs_axis1 _ _)
  have er : dot_S32x16_S32x32768_S16x32768_0_0_1_1_n_n.rhsIdx (ix2 e q) ((ValueIdx.contrEquiv1 dot_S32x16_S32x32768_S16x32768_0_0_1_1_n_n 32 rfl rfl).symm k) = ix2 k q := funext fun a => Fin.ext (by
    match a with
    | ⟨0, _⟩ => exact (rhs_axis0 _ _).trans hk
    | ⟨1, _⟩ => exact rhs_axis1 _ _)
  rw [el, er]

/-- The payload the body stores, at entry (e, r, j) of the block: the 32 matrices' entries (r, j) against column e of
    params. The two changes of float format are the identity; the two reshapes move (r, j) to r · 1024 + j and back. -/
theorem payload_apply (x0 : Vec Ideal S32x32x1024 .f32) (x1 : Vec Ideal S32x16 .f32) (e : Fin 16) (r : Fin 32) (j : Fin 1024) :
    k0_pay1 x0 x1 (ix3 e r j) = ∑ k : Fin 32, x1 (ix2 k e) * x0 (ix3 k r j) := by
  have hq : r.val * 1024 + j.val < 32768 := by have := r.isLt; have := j.isLt; omega
  unfold k0_pay1
  rw [truncf_apply,
    shapeCast_apply _ shapeCasts_S16x32768_S16x32x1024 (ix3 e r j) (ix2 e ⟨r.val * 1024 + j.val, hq⟩)
      (by rewrite [Shape.rowMajor_val_two, Shape.rowMajor_val_three]; show e.val * 32768 + (r.val * 1024 + j.val) = (e.val * 32 + r.val) * 1024 + j.val; omega),
    contraction_apply]
  refine Finset.sum_congr rfl fun k _ => ?_
  rw [shapeCast_apply _ shapeCasts_S32x32x1024_S32x32768 (ix2 k ⟨r.val * 1024 + j.val, hq⟩) (ix3 k r j)
      (by rewrite [Shape.rowMajor_val_three, Shape.rowMajor_val_two]; show (k.val * 32 + r.val) * 1024 + j.val = k.val * 32768 + (r.val * 1024 + j.val); omega)]
  rfl

/-! ## From the blocks to the array -/

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The three index maps over the 32 points: the transformations' block and the filters' block move together along the
    row axis and sit at block 0 on the other two; params is one block. -/
theorem index_maps : ∀ t : Fin cfg0.N,
    win0_0.index t (0 : Fin 3) = 0 ∧ win0_0.index t (1 : Fin 3) = win0_2.index t (1 : Fin 3) ∧ win0_0.index t (2 : Fin 3) = 0
    ∧ win0_1.index t (0 : Fin 2) = 0 ∧ win0_1.index t (1 : Fin 2) = 0
    ∧ win0_2.index t (0 : Fin 3) = 0 ∧ win0_2.index t (1 : Fin 3) ≤ 31 ∧ win0_2.index t (2 : Fin 3) = 0 :=
  (by decide +kernel : ∀ t : Fin grid0.N, _)

/-- Every block of 32 rows is some point's. -/
theorem row_block_onto : ∀ q : Fin 32, ∃ t : Fin cfg0.N, win0_2.index t = ![0, q.val, 0] :=
  (by decide +kernel : ∀ q : Fin 32, ∃ t : Fin grid0.N, win0_2.index t = ![0, q.val, 0])

/-- What point t writes back is block t of the specification's filters of the arrays as the region finds them. -/
theorem flushed_eq (c : Dev nD) (t : Fin cfg0.N) :
    (dat0 V c).flushed 2 t = ((cfg0.win 2).blk t).view.read (Elt Ideal) (Cert.Spec.filt (V c main_arg1) (V c main_arg2)) := by
  show (cfg0.win 2).cut (grid0.coords t) ((dat0 V c).after 2 t) = _
  rw [after0_2]
  unfold out0_2
  rw [View.canon_unit_zero zeros3]
  simp only [View.ld_unit_zero (S := S32x32x1024) zeros3, View.ld_unit_zero (S := S32x16) zeros2]
  obtain ⟨e0, e1, e2, e3, e4, e5, e6, e7⟩ := index_maps t
  funext y
  obtain ⟨e, r, j, rfl⟩ : ∃ (e : Fin 16) (r : Fin 32) (j : Fin 1024), y = ix3 e r j := ⟨y 0, y 1, y 2, eq_ix3 y⟩
  have hr : win0_2.index t (1 : Fin 3) * 32 + r.val < 1024 := by have := r.isLt; omega
  show k0_pay1 (iblk0 V c 0 t) (iblk0 V c 1 t) (ix3 e r j)
    = Cert.Spec.filt (V c main_arg1) (V c main_arg2) (((cfg0.win 2).blk t).view.emb (ix3 e r j))
  refine (payload_apply (iblk0 V c 0 t) (iblk0 V c 1 t) e r j).trans ?_
  have hemb : ((cfg0.win 2).blk t).view.emb (ix3 e r j) = ix3 e (⟨win0_2.index t (1 : Fin 3) * 32 + r.val, hr⟩ : Fin 1024) j := by
    funext a; apply Fin.ext
    match a with
    | ⟨0, _⟩ => show win0_2.index t (0 : Fin 3) * 16 + 1 * e.val = e.val; omega
    | ⟨1, _⟩ => show win0_2.index t (1 : Fin 3) * 32 + 1 * r.val = win0_2.index t (1 : Fin 3) * 32 + r.val; omega
    | ⟨2, _⟩ => show win0_2.index t (2 : Fin 3) * 1024 + 1 * j.val = j.val; omega
  rw [hemb, Cert.Spec.filt_apply]
  unfold Cert.Spec.filtAt
  refine Finset.sum_congr rfl fun k _ => ?_
  have hp : iblk0 V c 1 t (ix2 k e) = V c main_arg1 (ix2 k e) := by
    show V c main_arg1 (((cfg0.win 1).blk t).view.emb (ix2 k e)) = V c main_arg1 (ix2 k e)
    refine congrArg (V c main_arg1) ?_
    funext a; apply Fin.ext
    match a with
    | ⟨0, _⟩ => show win0_1.index t (0 : Fin 2) * 32 + 1 * k.val = k.val; omega
    | ⟨1, _⟩ => show win0_1.index t (1 : Fin 2) * 16 + 1 * e.val = e.val; omega
  have ht : iblk0 V c 0 t (ix3 k r j) = V c main_arg2 (ix3 k (⟨win0_2.index t (1 : Fin 3) * 32 + r.val, hr⟩ : Fin 1024) j) := by
    show V c main_arg2 (((cfg0.win 0).blk t).view.emb (ix3 k r j)) = _
    refine congrArg (V c main_arg2) ?_
    funext a; apply Fin.ext
    match a with
    | ⟨0, _⟩ => show win0_0.index t (0 : Fin 3) * 32 + 1 * k.val = k.val; omega
    | ⟨1, _⟩ => show win0_0.index t (1 : Fin 3) * 32 + 1 * r.val = win0_2.index t (1 : Fin 3) * 32 + r.val; omega
    | ⟨2, _⟩ => show win0_0.index t (2 : Fin 3) * 1024 + 1 * j.val = j.val; omega
  rw [hp, ht]

/-- An index of the filters array is in point t's block iff each coordinate is in the block's range on its axis. -/
theorem mem_block (t : Fin cfg0.N) (i : S16x1024x1024.Idx) :
    i ∈ ((cfg0.win 2).blk t).view.set ↔ ∀ a : Fin 3, win0_2.index t a * S16x32x1024.size a ≤ (i a).val ∧ (i a).val < win0_2.index t a * S16x32x1024.size a + S16x32x1024.size a := by
  show i ∈ ((View.whole main_v0).slice (win0_2.rect t)).set ↔ _
  rw [View.set_slice_whole, Rect.mem_set_unit]
  exact Iff.rfl

/-- Row i of a filter lies in the block of point i / 32. -/
theorem covered (i : S16x1024x1024.Idx) :
    ∃ t : Fin cfg0.N, (cfg0.win 2).flush t = true ∧ i ∈ ((cfg0.win 2).blk t).view.set := by
  have h0 : (i 0).val < 16 := (i 0).isLt
  have h1 : (i 1).val < 1024 := (i 1).isLt
  have h2 : (i 2).val < 1024 := (i 2).isLt
  obtain ⟨t, ht⟩ := row_block_onto ⟨(i 1).val / 32, by omega⟩
  have q0 : win0_2.index t (0 : Fin 3) = 0 := congrFun ht 0
  have q1 : win0_2.index t (1 : Fin 3) = (i 1).val / 32 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 16 ≤ (i 0).val ∧ (i 0).val < win0_2.index t (0 : Fin 3) * 16 + 16; omega
  | ⟨1, _⟩ => show win0_2.index t (1 : Fin 3) * 32 ≤ (i 1).val ∧ (i 1).val < win0_2.index t (1 : Fin 3) * 32 + 32; omega
  | ⟨2, _⟩ => show win0_2.index t (2 : Fin 3) * 1024 ≤ (i 2).val ∧ (i 2).val < win0_2.index t (2 : Fin 3) * 1024 + 1024; omega

/-- After the first region the filters array is the specification's filters of params and transformations as the region
    found them. -/
theorem final (c : Dev nD) : (dat0 V c).arrAt 2 cfg0.N = Cert.Spec.filt (V c main_arg1) (V c main_arg2) :=
  (dat0 V c).arrAt_eq_of_cover 2 _ (fun t _ => flushed_eq V c t) covered

end Cert.KernelIdeal.FilterValue

end
-- ==== Proof.OutputValue.lean ====
/-
  What the second region leaves in the result array. At a grid point the body reads a block of 256 rows of x (all 1024
  columns) and, of every one of the 16 filters, a block of 128 rows; for each filter e it contracts the rows of x against
  the rows of the filter, applies  s · 1 / (1 + e^(-s))  and stores the [256, 128] result into lane e of the output block
  [256, 128, 16]. The sixteen stores are one function of the two blocks,
      block[b, i, e] = swish (Σ_j xblock[b, j] · fblock[e, i, j]),
  each store holding the slice of it at its own e; they tile the output block. The output blocks tile the result array,
  so after the region it IS the specification's result of x and the filters as the region found them.
-/
import proofs.«154010_j90958817394732_1_alg».proof.Proof.Gen.KernelIdeal.Frame
import proofs.«154010_j90958817394732_1_alg».proof.Proof.Spec
import Idealize.ShloMosaic.Lib.Pipeline.Value
import Idealize.ShloMosaic.Lib.ValueIdx
import Idealize.ShloMosaic.PureOps.Ideal.Laws

noncomputable section

namespace Cert.KernelIdeal.OutputValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's contraction at an index -/

theorem lhs_axis0 (i : S256x128.Idx) (q : dot_S256x1024_S128x1024_S256x128_1_1_0_0_n_n.contr.Idx) :
    (dot_S256x1024_S128x1024_S256x128_1_1_0_0_n_n.lhsIdx i q 0).val = (i 0).val := by
  unfold DotDims.lhsIdx
  rw [dif_neg (show ¬(0 : Fin S256x1024.rank) ∈ dot_S256x1024_S128x1024_S256x128_1_1_0_0_n_n.lhsBatch by decide), dif_pos (show (0 : Fin S256x1024.rank) ∈ dot_S256x1024_S128x1024_S256x128_1_1_0_0_n_n.lhsNonContracting by decide)]
  rfl
theorem lhs_axis1 (i : S256x128.Idx) (q : dot_S256x1024_S128x1024_S256x128_1_1_0_0_n_n.contr.Idx) :
    (dot_S256x1024_S128x1024_S256x128_1_1_0_0_n_n.lhsIdx i q 1).val = (q ⟨0, by decide⟩).val :=
  dot_S256x1024_S128x1024_S256x128_1_1_0_0_n_n.lhsIdx_val_of_single rfl i q
theorem rhs_axis0 (i : S256x128.Idx) (q : dot_S256x1024_S128x1024_S256x128_1_1_0_0_n_n.contr.Idx) :
    (dot_S256x1024_S128x1024_S256x128_1_1_0_0_n_n.rhsIdx i q 0).val = (i 1).val := by
  unfold DotDims.rhsIdx
  rw [dif_neg (show ¬(0 : Fin S128x1024.rank) ∈ dot_S256x1024_S128x1024_S256x128_1_1_0_0_n_n.rhsBatch by decide), dif_pos (show (0 : Fin S128x1024.rank) ∈ dot_S256x1024_S128x1024_S256x128_1_1_0_0_n_n.rhsNonContracting by decide)]
  rfl
theorem rhs_axis1 (i : S256x128.Idx) (q : dot_S256x1024_S128x1024_S256x128_1_1_0_0_n_n.contr.Idx) :
    (dot_S256x1024_S128x1024_S256x128_1_1_0_0_n_n.rhsIdx i q 1).val = (q ⟨0, by decide⟩).val :=
  dot_S256x1024_S128x1024_S256x128_1_1_0_0_n_n.rhsIdx_val_of_single rfl i q

/-- Rows against rows into a zero accumulator: entry (b, i) is the sum over the 1024 columns. -/
theorem contraction_apply (l : FVec Ideal S256x1024 .bf16) (r : FVec Ideal S128x1024 .bf16) (b : Fin 256) (i : Fin 128) :
    matmul (F := Ideal) dot_S256x1024_S128x1024_S256x128_1_1_0_0_n_n none l r (constant S256x128 .f32 0x00000000#32) (ix2 b i)
      = ∑ j : Fin 1024, l (ix2 b j) * r (ix2 i j) := by
  simp only [matmul]
  rw [Ideal.matmul_constant_zero_apply, ← Equiv.sum_comp (ValueIdx.contrEquiv1 dot_S256x1024_S128x1024_S256x128_1_1_0_0_n_n 1024 rfl rfl).symm]
  refine Finset.sum_congr rfl fun j _ => ?_
  have hj := ValueIdx.contrEquiv1_symm_val dot_S256x1024_S128x1024_S256x128_1_1_0_0_n_n 1024 rfl rfl j
  have el : dot_S256x1024_S128x1024_S256x128_1_1_0_0_n_n.lhsIdx (ix2 b i) ((ValueIdx.contrEquiv1 dot_S256x1024_S128x1024_S256x128_1_1_0_0_n_n 1024 rfl rfl).symm j) = ix2 b j := funext fun a => Fin.ext (by
    match a with
    | ⟨0, _⟩ => exact lhs_axis0 _ _
    | ⟨1, _⟩ => exact (lhs_axis1 _ _).trans hj)
  have er : dot_S256x1024_S128x1024_S256x128_1_1_0_0_n_n.rhsIdx (ix2 b i) ((ValueIdx.contrEquiv1 dot_S256x1024_S128x1024_S256x128_1_1_0_0_n_n 1024 rfl rfl).symm j) = ix2 i j := funext fun a => Fin.ext (by
    match a with
    | ⟨0, _⟩ => exact rhs_axis0 _ _
    | ⟨1, _⟩ => exact (rhs_axis1 _ _).trans hj)
  rw [el, er]

/-! ## One store's payload -/

/-- What the body stores for one filter: from the block of x and that filter's [1, 128, 1024] slice. -/
def piece (xb : Vec Ideal S256x1024 .f32) (fe : Vec Ideal S1x128x1024 .bf16) : FVec Ideal S256x128x1 .f32 :=
  shapeCast S256x128x1
    (mulf
      (matmul dot_S256x1024_S128x1024_S256x128_1_1_0_0_n_n none (truncf .bf16 xb bitsLt_bf16_f32) (shapeCast S128x1024 fe shapeCasts_S1x128x1024_S128x1024 : FVec Ideal S128x1024 .bf16) (constant S256x128 .f32 0x00000000#32))
      (logistic (matmul dot_S256x1024_S128x1024_S256x128_1_1_0_0_n_n none (truncf .bf16 xb bitsLt_bf16_f32) (shapeCast S128x1024 fe shapeCasts_S1x128x1024_S128x1024 : FVec Ideal S128x1024 .bf16) (constant S256x128 .f32 0x00000000#32))))
    shapeCasts_S256x128_S256x128x1

/-- Its entry (b, i, 0): swish of row b of the block of x against row i of the slice. -/
theorem piece_apply (xb : Vec Ideal S256x1024 .f32) (fe : Vec Ideal S1x128x1024 .bf16) (b : Fin 256) (i : Fin 128) (z : Fin 1) :
    piece xb fe (ix3 b i z) = Cert.Spec.swish (∑ j : Fin 1024, xb (ix2 b j) * fe (ix3 (0 : Fin 1) i j)) := by
  have hz : z.val = 0 := by have := z.isLt; omega
  unfold piece
  rw [shapeCast_apply _ shapeCasts_S256x128_S256x128x1 (ix3 b i z) (ix2 b i)
      (by rewrite [Shape.rowMajor_val_two, Shape.rowMajor_val_three]; show b.val * 128 + i.val = (b.val * 128 + i.val) * 1 + z.val; omega),
    mulf_apply]
  show Cert.Spec.swish (matmul (F := Ideal) dot_S256x1024_S128x1024_S256x128_1_1_0_0_n_n none (truncf .bf16 xb bitsLt_bf16_f32) (shapeCast S128x1024 fe shapeCasts_S1x128x1024_S128x1024 : FVec Ideal S128x1024 .bf16) (constant S256x128 .f32 0x00000000#32) (ix2 b i)) = _
  rw [contraction_apply]
  refine congrArg Cert.Spec.swish (Finset.sum_congr rfl fun j _ => ?_)
  rw [shapeCast_apply _ shapeCasts_S1x128x1024_S128x1024 (ix2 i j) (ix3 (0 : Fin 1) i j)
      (by rewrite [Shape.rowMajor_val_three, Shape.rowMajor_val_two]; show (0 * 128 + i.val) * 1024 + j.val = i.val * 1024 + j.val; omega)]
  rfl

/-- The sixteen payloads, under the names the parts of the body gave them, are that one function. -/
theorem pay_0 (x : Vec Ideal S256x1024 .f32) (fe : Vec Ideal S1x128x1024 .bf16) : k1_pay4 x fe = piece x fe := rfl
theorem pay_1 (x : Vec Ideal S256x1024 .f32) (fe : Vec Ideal S1x128x1024 .bf16) : k1_pay5 x fe = piece x fe := rfl
theorem pay_2 (x : Vec Ideal S256x1024 .f32) (fe : Vec Ideal S1x128x1024 .bf16) : k1_pay6 x fe = piece x fe := rfl
theorem pay_3 (x : Vec Ideal S256x1024 .f32) (fe : Vec Ideal S1x128x1024 .bf16) :
    k1_pay8 (k1_pay3 x) (k1_pay7 fe) (constant S256x128 .f32 0x00000000#32) = piece x fe := rfl
theorem pay_4 (x : Vec Ideal S256x1024 .f32) (fe : Vec Ideal S1x128x1024 .bf16) : k1_pay9 (k1_pay3 x) fe = piece x fe := rfl
theorem pay_5 (x : Vec Ideal S256x1024 .f32) (fe : Vec Ideal S1x128x1024 .bf16) : k1_pay10 (k1_pay3 x) fe = piece x fe := rfl
theorem pay_6 (x : Vec Ideal S256x1024 .f32) (fe : Vec Ideal S1x128x1024 .bf16) : k1_pay11 (k1_pay3 x) fe = piece x fe := rfl
theorem pay_7 (x : Vec Ideal S256x1024 .f32) (fe : Vec Ideal S1x128x1024 .bf16) : k1_pay12 (k1_pay3 x) fe = piece x fe := rfl
theorem pay_8 (x : Vec Ideal S256x1024 .f32) (fe : Vec Ideal S1x128x1024 .bf16) : k1_pay13 (k1_pay3 x) fe = piece x fe := rfl
theorem pay_9 (x : Vec Ideal S256x1024 .f32) (fe : Vec Ideal S1x128x1024 .bf16) : k1_pay14 (k1_pay3 x) fe = piece x fe := rfl
theorem pay_10 (x : Vec Ideal S256x1024 .f32) (fe : Vec Ideal S1x128x1024 .bf16) : k1_pay16 (k1_pay15 (k1_pay3 x) fe) = piece x fe := rfl
theorem pay_11 (x : Vec Ideal S256x1024 .f32) (fe : Vec Ideal S1x128x1024 .bf16) : k1_pay17 (k1_pay3 x) fe = piece x fe := rfl
theorem pay_12 (x : Vec Ideal S256x1024 .f32) (fe : Vec Ideal S1x128x1024 .bf16) : k1_pay18 (k1_pay3 x) fe = piece x fe := rfl
theorem pay_13 (x : Vec Ideal S256x1024 .f32) (fe : Vec Ideal S1x128x1024 .bf16) : k1_pay19 (k1_pay3 x) fe = piece x fe := rfl
theorem pay_14 (x : Vec Ideal S256x1024 .f32) (fe : Vec Ideal S1x128x1024 .bf16) : k1_pay1 (k1_pay20 (k1_pay3 x) fe) = piece x fe := rfl
theorem pay_15 (x : Vec Ideal S256x1024 .f32) (fe : Vec Ideal S1x128x1024 .bf16) : k1_pay2 (k1_pay3 x) fe = piece x fe := rfl

/-! ## The output block as one function of the two input blocks -/

theorem zeros2 : (![0, 0] : Fin 2 → Nat) = fun _ => 0 := funext fun a => by fin_cases a <;> rfl

/-- Entry (b, i, e) of the output block: swish of row b of the block of x against row i of filter e's block. -/
def blockFn (x0 : Vec Ideal S256x1024 .f32) (x1 : Vec Ideal S16x128x1024 .bf16) : S256x128x16.Idx → EReal :=
  fun y => Cert.Spec.swish (∑ j : Fin 1024, x0 (ix2 (y 0) j) * x1 (ix3 (y 2) (y 1) j))

theorem blockFn_apply (x0 : Vec Ideal S256x1024 .f32) (x1 : Vec Ideal S16x128x1024 .bf16) (b : Fin 256) (i : Fin 128) (e : Fin 16) :
    blockFn x0 x1 (ix3 b i e) = Cert.Spec.swish (∑ j : Fin 1024, x0 (ix2 b j) * x1 (ix3 e i j)) := rfl

/-- The store for filter e, through its rectangle (lane e of the output block, the [1, 128, 1024] slice e of the filters'
    block): its payload at a local index is the block function at the index's place in the block. -/
theorem slice_apply (x0 : Vec Ideal S256x1024 .f32) (x1 : Vec Ideal S16x128x1024 .bf16) (e : Fin 16)
    (inbI : ∀ a, (![e.val, 0, 0] : Fin 3 → Nat) a + S1x128x1024.size a ≤ S16x128x1024.size a)
    (inbO : ∀ a, (![0, 0, e.val] : Fin 3 → Nat) a + S256x128x1.size a ≤ S256x128x16.size a)
    (x : S256x128x1.Idx) :
    piece (View.ld x0 r1_0) (View.ld x1 (Rect.unit (s := S16x128x1024) ![e.val, 0, 0] S1x128x1024.size inbI)) x
      = blockFn x0 x1 ((Rect.unit (s := S256x128x16) ![0, 0, e.val] S256x128x1.size inbO).emb x) := by
  obtain ⟨b, i, z, rfl⟩ : ∃ (b : Fin 256) (i : Fin 128) (z : Fin 1), x = ix3 b i z := ⟨x 0, x 1, x 2, eq_ix3 x⟩
  have hz : z.val = 0 := by have := z.isLt; omega
  rw [piece_apply, View.ld_unit_zero (S := S256x1024) zeros2]
  have hemb : (Rect.unit (s := S256x128x16) ![0, 0, e.val] S256x128x1.size inbO).emb (ix3 b i z) = ix3 b i e := by
    funext a; apply Fin.ext
    match a with
    | ⟨0, _⟩ => show 0 + 1 * b.val = b.val; omega
    | ⟨1, _⟩ => show 0 + 1 * i.val = i.val; omega
    | ⟨2, _⟩ => show e.val + 1 * z.val = e.val; omega
  rw [hemb]
  show _ = Cert.Spec.swish (∑ j : Fin 1024, x0 (ix2 b j) * x1 (ix3 e i j))
  refine congrArg Cert.Spec.swish (Finset.sum_congr rfl fun j _ => ?_)
  have hin : View.ld x1 (Rect.unit (s := S16x128x1024) ![e.val, 0, 0] S1x128x1024.size inbI) (ix3 (0 : Fin 1) i j) = x1 (ix3 e i j) := by
    show x1 ((Rect.unit (s := S16x128x1024) ![e.val, 0, 0] S1x128x1024.size inbI).emb (ix3 (0 : Fin 1) i j)) = _
    refine congrArg x1 ?_
    funext a; apply Fin.ext
    match a with
    | ⟨0, _⟩ => show e.val + 1 * 0 = e.val; omega
    | ⟨1, _⟩ => show 0 + 1 * i.val = i.val; omega
    | ⟨2, _⟩ => show 0 + 1 * j.val = j.val; omega
  rw [hin]

/-- The body's sixteen stores, last first, each with the one payload function. -/
theorem out_pieces (x0 : Vec Ideal S256x1024 .f32) (x1 : Vec Ideal S16x128x1024 .bf16) :
    out1_2 x0 x1 = View.canon ([⟨r1_32, piece (View.ld x0 r1_0) (View.ld x1 r1_31)⟩,
      ⟨r1_30, piece (View.ld x0 r1_0) (View.ld x1 r1_29)⟩,
      ⟨r1_28, piece (View.ld x0 r1_0) (View.ld x1 r1_27)⟩,
      ⟨r1_26, piece (View.ld x0 r1_0) (View.ld x1 r1_25)⟩,
      ⟨r1_24, piece (View.ld x0 r1_0) (View.ld x1 r1_23)⟩,
      ⟨r1_22, piece (View.ld x0 r1_0) (View.ld x1 r1_21)⟩,
      ⟨r1_20, piece (View.ld x0 r1_0) (View.ld x1 r1_19)⟩,
      ⟨r1_18, piece (View.ld x0 r1_0) (View.ld x1 r1_17)⟩,
      ⟨r1_16, piece (View.ld x0 r1_0) (View.ld x1 r1_15)⟩,
      ⟨r1_14, piece (View.ld x0 r1_0) (View.ld x1 r1_13)⟩,
      ⟨r1_12, piece (View.ld x0 r1_0) (View.ld x1 r1_11)⟩,
      ⟨r1_10, piece (View.ld x0 r1_0) (View.ld x1 r1_9)⟩,
      ⟨r1_8, piece (View.ld x0 r1_0) (View.ld x1 r1_7)⟩,
      ⟨r1_6, piece (View.ld x0 r1_0) (View.ld x1 r1_5)⟩,
      ⟨r1_4, piece (View.ld x0 r1_0) (View.ld x1 r1_3)⟩,
      ⟨r1_2, piece (View.ld x0 r1_0) (View.ld x1 r1_1)⟩] : List (View.Piece (Elt Ideal) S256x128x16 .f32)) := rfl

/-- The output block, index by index. -/
theorem block_apply (x0 : Vec Ideal S256x1024 .f32) (x1 : Vec Ideal S16x128x1024 .bf16) (y : S256x128x16.Idx) :
    out1_2 x0 x1 y = blockFn x0 x1 y := by
  rw [out_pieces]
  refine View.canon_apply_of_pieces (Val := Elt Ideal) (S := S256x128x16) (e := .f32) (blockFn x0 x1) _ ?_ y (cover1_2 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · exact slice_apply x0 x1 15 inb_S16x128x1024_S1x128x1024_15_0_0 inb_S256x128x16_S256x128x1_0_0_15 x
  · exact slice_apply x0 x1 14 inb_S16x128x1024_S1x128x1024_14_0_0 inb_S256x128x16_S256x128x1_0_0_14 x
  · exact slice_apply x0 x1 13 inb_S16x128x1024_S1x128x1024_13_0_0 inb_S256x128x16_S256x128x1_0_0_13 x
  · exact slice_apply x0 x1 12 inb_S16x128x1024_S1x128x1024_12_0_0 inb_S256x128x16_S256x128x1_0_0_12 x
  · exact slice_apply x0 x1 11 inb_S16x128x1024_S1x128x1024_11_0_0 inb_S256x128x16_S256x128x1_0_0_11 x
  · exact slice_apply x0 x1 10 inb_S16x128x1024_S1x128x1024_10_0_0 inb_S256x128x16_S256x128x1_0_0_10 x
  · exact slice_apply x0 x1 9 inb_S16x128x1024_S1x128x1024_9_0_0 inb_S256x128x16_S256x128x1_0_0_9 x
  · exact slice_apply x0 x1 8 inb_S16x128x1024_S1x128x1024_8_0_0 inb_S256x128x16_S256x128x1_0_0_8 x
  · exact slice_apply x0 x1 7 inb_S16x128x1024_S1x128x1024_7_0_0 inb_S256x128x16_S256x128x1_0_0_7 x
  · exact slice_apply x0 x1 6 inb_S16x128x1024_S1x128x1024_6_0_0 inb_S256x128x16_S256x128x1_0_0_6 x
  · exact slice_apply x0 x1 5 inb_S16x128x1024_S1x128x1024_5_0_0 inb_S256x128x16_S256x128x1_0_0_5 x
  · exact slice_apply x0 x1 4 inb_S16x128x1024_S1x128x1024_4_0_0 inb_S256x128x16_S256x128x1_0_0_4 x
  · exact slice_apply x0 x1 3 inb_S16x128x1024_S1x128x1024_3_0_0 inb_S256x128x16_S256x128x1_0_0_3 x
  · exact slice_apply x0 x1 2 inb_S16x128x1024_S1x128x1024_2_0_0 inb_S256x128x16_S256x128x1_0_0_2 x
  · exact slice_apply x0 x1 1 inb_S16x128x1024_S1x128x1024_1_0_0 inb_S256x128x16_S256x128x1_0_0_1 x
  · exact slice_apply x0 x1 0 inb_S16x128x1024_S1x128x1024_0_0_0 inb_S256x128x16_S256x128x1_0_0_0 x

/-! ## From the blocks to the array -/

variable (V : (c : Dev nD) → (b : Ref sig .tc) → Buf (Elt Ideal) ((c : Thread nD τ).loc b))

/-- The three index maps over the 8 × 16 points: the block of x moves with the output block along the batch axis, the
    filters' block along the row axis; every other block index is 0. -/
theorem index_maps : ∀ t : Fin cfg1.N,
    win1_0.index t (0 : Fin 2) = win1_2.index t (0 : Fin 3) ∧ win1_0.index t (1 : Fin 2) = 0
    ∧ win1_1.index t (0 : Fin 3) = 0 ∧ win1_1.index t (1 : Fin 3) = win1_2.index t (1 : Fin 3) ∧ win1_1.index t (2 : Fin 3) = 0
    ∧ win1_2.index t (0 : Fin 3) ≤ 15 ∧ win1_2.index t (1 : Fin 3) ≤ 7 ∧ win1_2.index t (2 : Fin 3) = 0 :=
  (by decide +kernel : ∀ t : Fin grid1.N, _)

/-- Every (batch block, row block) pair is some point's. -/
theorem block_onto : ∀ (q0 : Fin 16) (q1 : Fin 8), ∃ t : Fin cfg1.N, win1_2.index t = ![q0.val, q1.val, 0] :=
  (by decide +kernel : ∀ (q0 : Fin 16) (q1 : Fin 8), ∃ t : Fin grid1.N, win1_2.index t = ![q0.val, q1.val, 0])

/-- What point t writes back is block t of the specification's result of x and the filters as the region finds them. -/
theorem flushed_eq (c : Dev nD) (t : Fin cfg1.N) :
    (dat1 V c).flushed 2 t = ((cfg1.win 2).blk t).view.read (Elt Ideal) (Cert.Spec.out (V c main_arg0) (V c main_v0)) := by
  show (cfg1.win 2).cut (grid1.coords t) ((dat1 V c).after 2 t) = _
  rw [after1_2]
  obtain ⟨e0, e1, e2, e3, e4, e5, e6, e7⟩ := index_maps t
  funext y
  obtain ⟨b, i, e, rfl⟩ : ∃ (b : Fin 256) (i : Fin 128) (e : Fin 16), y = ix3 b i e := ⟨y 0, y 1, y 2, eq_ix3 y⟩
  have hb : win1_2.index t (0 : Fin 3) * 256 + b.val < 4096 := by have := b.isLt; omega
  have hi : win1_2.index t (1 : Fin 3) * 128 + i.val < 1024 := by have := i.isLt; omega
  show out1_2 (iblk1 V c 0 t) (iblk1 V c 1 t) (ix3 b i e)
    = Cert.Spec.out (V c main_arg0) (V c main_v0) (((cfg1.win 2).blk t).view.emb (ix3 b i e))
  refine ((block_apply (iblk1 V c 0 t) (iblk1 V c 1 t) (ix3 b i e)).trans
    (blockFn_apply (iblk1 V c 0 t) (iblk1 V c 1 t) b i e)).trans ?_
  have hemb : ((cfg1.win 2).blk t).view.emb (ix3 b i e)
      = ix3 (⟨win1_2.index t (0 : Fin 3) * 256 + b.val, hb⟩ : Fin 4096) (⟨win1_2.index t (1 : Fin 3) * 128 + i.val, hi⟩ : Fin 1024) e := by
    funext a; apply Fin.ext
    match a with
    | ⟨0, _⟩ => show win1_2.index t (0 : Fin 3) * 256 + 1 * b.val = win1_2.index t (0 : Fin 3) * 256 + b.val; omega
    | ⟨1, _⟩ => show win1_2.index t (1 : Fin 3) * 128 + 1 * i.val = win1_2.index t (1 : Fin 3) * 128 + i.val; omega
    | ⟨2, _⟩ => show win1_2.index t (2 : Fin 3) * 16 + 1 * e.val = e.val; omega
  rw [hemb, Cert.Spec.out_apply]
  unfold Cert.Spec.linAt
  refine congrArg Cert.Spec.swish (Finset.sum_congr rfl fun j _ => ?_)
  have hx : iblk1 V c 0 t (ix2 b j) = V c main_arg0 (ix2 (⟨win1_2.index t (0 : Fin 3) * 256 + b.val, hb⟩ : Fin 4096) j) := by
    show V c main_arg0 (((cfg1.win 0).blk t).view.emb (ix2 b j)) = _
    refine congrArg (V c main_arg0) ?_
    funext a; apply Fin.ext
    match a with
    | ⟨0, _⟩ => show win1_0.index t (0 : Fin 2) * 256 + 1 * b.val = win1_2.index t (0 : Fin 3) * 256 + b.val; omega
    | ⟨1, _⟩ => show win1_0.index t (1 : Fin 2) * 1024 + 1 * j.val = j.val; omega
  have hf : iblk1 V c 1 t (ix3 e i j) = V c main_v0 (ix3 e (⟨win1_2.index t (1 : Fin 3) * 128 + i.val, hi⟩ : Fin 1024) j) := by
    show V c main_v0 (((cfg1.win 1).blk t).view.emb (ix3 e i j)) = _
    refine congrArg (V c main_v0) ?_
    funext a; apply Fin.ext
    match a with
    | ⟨0, _⟩ => show win1_1.index t (0 : Fin 3) * 16 + 1 * e.val = e.val; omega
    | ⟨1, _⟩ => show win1_1.index t (1 : Fin 3) * 128 + 1 * i.val = win1_2.index t (1 : Fin 3) * 128 + i.val; omega
    | ⟨2, _⟩ => show win1_1.index t (2 : Fin 3) * 1024 + 1 * j.val = j.val; omega
  rw [hx, hf]

/-- An index of the result array is in point t's block iff each coordinate is in the block's range on its axis. -/
theorem mem_block (t : Fin cfg1.N) (i : S4096x1024x16.Idx) :
    i ∈ ((cfg1.win 2).blk t).view.set ↔ ∀ a : Fin 3, win1_2.index t a * S256x128x16.size a ≤ (i a).val ∧ (i a).val < win1_2.index t a * S256x128x16.size a + S256x128x16.size a := by
  show i ∈ ((View.whole main_v1).slice (win1_2.rect t)).set ↔ _
  rw [View.set_slice_whole, Rect.mem_set_unit]
  exact Iff.rfl

/-- Entry (b, i, e) lies in the block of the point at (b / 256, i / 128). -/
theorem covered (i : S4096x1024x16.Idx) :
    ∃ t : Fin cfg1.N, (cfg1.win 2).flush t = true ∧ i ∈ ((cfg1.win 2).blk t).view.set := by
  have h0 : (i 0).val < 4096 := (i 0).isLt
  have h1 : (i 1).val < 1024 := (i 1).isLt
  have h2 : (i 2).val < 16 := (i 2).isLt
  obtain ⟨t, ht⟩ := block_onto ⟨(i 0).val / 256, by omega⟩ ⟨(i 1).val / 128, by omega⟩
  have q0 : win1_2.index t (0 : Fin 3) = (i 0).val / 256 := congrFun ht 0
  have q1 : win1_2.index t (1 : Fin 3) = (i 1).val / 128 := congrFun ht 1
  have q2 : win1_2.index t (2 : Fin 3) = 0 := congrFun ht 2
  refine ⟨t, flush1_2 t, ?_⟩
  rw [mem_block]
  intro a
  match a with
  | ⟨0, _⟩ => show win1_2.index t (0 : Fin 3) * 256 ≤ (i 0).val ∧ (i 0).val < win1_2.index t (0 : Fin 3) * 256 + 256; omega
  | ⟨1, _⟩ => show win1_2.index t (1 : Fin 3) * 128 ≤ (i 1).val ∧ (i 1).val < win1_2.index t (1 : Fin 3) * 128 + 128; omega
  | ⟨2, _⟩ => show win1_2.index t (2 : Fin 3) * 16 ≤ (i 2).val ∧ (i 2).val < win1_2.index t (2 : Fin 3) * 16 + 16; omega

/-- After the second region the result array is the specification's result of x and the filters as the region found them. -/
theorem final (c : Dev nD) : (dat1 V c).arrAt 2 cfg1.N = Cert.Spec.out (V c main_arg0) (V c main_v0) :=
  (dat1 V c).arrAt_eq_of_cover 2 _ (fun t _ => flushed_eq V c t) covered

end Cert.KernelIdeal.OutputValue

end
-- ==== Proof.KernelValue.lean ====
/-
  The idealized kernel's run with its result named as the specification of the three arguments.
  The second region finds x as launched (the first region never touches it) and the filters array as the first region
  left it, which is the specification's filters of params and transformations as launched; so what the second region
  leaves in the result array is the specification's result of the launch contents.
-/
import proofs.«154010_j90958817394732_1_alg».proof.Proof.KernelRun
import proofs.«154010_j90958817394732_1_alg».proof.Proof.FilterValue
import proofs.«154010_j90958817394732_1_alg».proof.Proof.OutputValue

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The second region finds x as launched. -/
theorem entry_x (c : Dev nD) : V1 m ρ c main_arg0 = m ((c : Thread nD τ).loc main_arg0) :=
  (W1_of_ne m ρ c main_arg0 (by decide)).trans rfl

/-- The second region finds the filters array at the specification's filters of the launch contents. -/
theorem entry_filters (c : Dev nD) :
    V1 m ρ c main_v0 = Cert.Spec.filt (m ((c : Thread nD τ).loc main_arg1)) (m ((c : Thread nD τ).loc main_arg2)) :=
  (W1_arr m ρ c 2).trans (Cert.KernelIdeal.FilterValue.final (V0 m ρ) c)

/-- What the second region's write-backs leave in the result array. -/
theorem result (c : Dev nD) :
    (dat1 (V1 m ρ) c).arrAt 2 cfg1.N
      = Cert.Spec.out (m ((c : Thread nD τ).loc main_arg0))
          (Cert.Spec.filt (m ((c : Thread nD τ).loc main_arg1)) (m ((c : Thread nD τ).loc main_arg2))) := by
  rw [Cert.KernelIdeal.OutputValue.final (V1 m ρ) c, entry_x m ρ c, entry_filters m ρ c]

/-- Every weakly fair execution terminates without a fault with the result array at the specification of the
    arguments' launch contents, the arguments unchanged. -/
theorem run : θ_run defs (onTc (τ := τ) (main (F := Ideal))) ⟨m, fun _ => 0, ρ⟩ (fun r => ∀ c : Dev nD,
      r.2.mem ((c.tc : Thread nD τ).loc main_v1)
        = Cert.Spec.out (m ((c.tc : Thread nD τ).loc main_arg0))
            (Cert.Spec.filt (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result m ρ c), (h c).2⟩) (Cert.KernelIdeal.Named.run_named m ρ)

end Cert.KernelIdeal.Result

end
-- ==== Proof.RefValue.lean ====
/-
  The reference's result, read index by index, is the specification: its first contraction (over the 32
  transformation matrices, on the matrices flattened to rows of 1024 · 1024 entries and folded back) gives the filters,
  its second (over the 1024 columns, followed by the exchange of the last two axes) applies filter e to row b of x, and
  the last five elementwise operations spell  s · 1 / (1 + e^(-s)).
  The only arithmetic is on indices: flattening (i, j) to i · 1024 + j and splitting it again returns (i, j).
-/
import proofs.«154010_j90958817394732_1_alg».proof.Proof.Gen.ReferenceIdeal.Read
import proofs.«154010_j90958817394732_1_alg».proof.Proof.Spec

noncomputable section

namespace Cert.ReferenceIdeal.RefValue

open Cert.ReferenceIdeal Cert.ReferenceIdeal.Read Idealize.ShloMosaic Idealize.ShloMosaic.ValueIdx

/-- The left factor of the first contraction at entry (e, i, j), term k: params[k, e]. -/
theorem params_idx (q : S16x1024x1024.Idx) (k : Fin 32) : lidx_main_v1 (idx_main_v2 q) k = ix2 k (q 0) := by
  funext a; apply Fin.ext
  match a with
  | ⟨0, _⟩ => rfl
  | ⟨1, _⟩ =>
    show (((q 0).val * 1024 + (q 1).val) * 1024 + (q 2).val) / 1048576 = (q 0).val
    have h0 : (q 0).val < 16 := (q 0).isLt
    have h1 : (q 1).val < 1024 := (q 1).isLt
    have h2 : (q 2).val < 1024 := (q 2).isLt
    omega

/-- The right factor: the flattened column i · 1024 + j of matrix k, folded back, is transformations[k, i, j]. -/
theorem trans_idx (q : S16x1024x1024.Idx) (k : Fin 32) :
    idx_main_v0 (ridx_main_v1 (idx_main_v2 q) k) = ix3 k (q 1) (q 2) := by
  have h0 : (q 0).val < 16 := (q 0).isLt
  have h1 : (q 1).val < 1024 := (q 1).isLt
  have h2 : (q 2).val < 1024 := (q 2).isLt
  have hk : k.val < 32 := k.isLt
  funext a; apply Fin.ext
  match a with
  | ⟨0, _⟩ =>
    show (k.val * 1048576 + (((q 0).val * 1024 + (q 1).val) * 1024 + (q 2).val) % 1048576) / 1048576 = k.val
    omega
  | ⟨1, _⟩ =>
    show (k.val * 1048576 + (((q 0).val * 1024 + (q 1).val) * 1024 + (q 2).val) % 1048576) / 1024 % 1024 = (q 1).val
    omega
  | ⟨2, _⟩ =>
    show (k.val * 1048576 + (((q 0).val * 1024 + (q 1).val) * 1024 + (q 2).val) % 1048576) % 1024 = (q 2).val
    omega

/-- The reference's filters are the specification's. -/
theorem filters_eq (x1 : (⟨S32x16, .f32⟩ : BufTy).Contents (Elt Ideal)) (x2 : (⟨S32x1024x1024, .f32⟩ : BufTy).Contents (Elt Ideal)) :
    val_main_v2 (F := Ideal) x1 x2 = Cert.Spec.filt x1 x2 := by
  funext q
  rw [val_main_v2_apply, val_main_v1_apply]
  unfold Cert.Spec.filt Cert.Spec.filtAt
  refine Finset.sum_congr rfl fun k _ => ?_
  rw [val_main_v0_apply, params_idx, trans_idx]
  rfl

/-- Row b of x against row i of filter e, as the reference contracts and then transposes it. -/
theorem lin_eq (x0 : (⟨S4096x1024, .f32⟩ : BufTy).Contents (Elt Ideal)) (x1 : (⟨S32x16, .f32⟩ : BufTy).Contents (Elt Ideal))
    (x2 : (⟨S32x1024x1024, .f32⟩ : BufTy).Contents (Elt Ideal)) (q : S4096x1024x16.Idx) :
    val_main_v4 (F := Ideal) x0 x1 x2 q = Cert.Spec.linAt x0 (Cert.Spec.filt x1 x2) (q 0) (q 1) (q 2) := by
  rw [val_main_v4_apply, val_main_v3_apply, filters_eq]
  unfold Cert.Spec.linAt
  refine Finset.sum_congr rfl fun j _ => ?_
  have el : lidx_main_v3 (idx_main_v4 q) j = ix2 (q 0) j := funext fun a => Fin.ext (by
    match a with
    | ⟨0, _⟩ => rfl
    | ⟨1, _⟩ => rfl)
  have er : ridx_main_v3 (idx_main_v4 q) j = ix3 (q 2) (q 1) j := funext fun a => Fin.ext (by
    match a with
    | ⟨0, _⟩ => rfl
    | ⟨1, _⟩ => rfl
    | ⟨2, _⟩ => rfl)
  rw [el, er]
  rfl

/-- The reference's result is the specification of the three arguments. -/
theorem result_eq (x0 : (⟨S4096x1024, .f32⟩ : BufTy).Contents (Elt Ideal)) (x1 : (⟨S32x16, .f32⟩ : BufTy).Contents (Elt Ideal))
    (x2 : (⟨S32x1024x1024, .f32⟩ : BufTy).Contents (Elt Ideal)) :
    val_main_v11 (F := Ideal) x0 x1 x2 = Cert.Spec.out x0 (Cert.Spec.filt x1 x2) := by
  funext q
  rw [val_main_v11_apply, val_main_v10_apply, val_main_v9_apply, val_main_cst_0_apply, val_main_v8_apply,
    val_main_v7_apply, val_main_cst_apply, val_main_v6_apply, val_main_v5_apply, lin_eq]
  exact Cert.Spec.swish_spelt _

end Cert.ReferenceIdeal.RefValue

end
-- ==== Proof.lean ====
/-
  The kernel generates 16 filters as combinations of 32 transformation matrices (one pipelined region), applies every
  filter to every row of x and passes the result through  s · 1 / (1 + e^(-s))  (a second region); the reference does the
  same with two contractions, a transpose and the sigmoid spelt out. Over the extended reals both results are
      out[b, i, e] = swish (Σ_j x[b, j] · Σ_p params[p, e] · transformations[p, i, j]),
  with the sums nested the same way and every product's factors in the same order on both sides, so the two results are
  equal entry by entry for every input (finiteness of the inputs is never used). The changes of float format in the
  kernel are the identity on the extended reals, and its one-operation sigmoid is the quotient the reference spells.

  frame_Kernel and frame_KernelIdeal are the generated frames of the two-region program; frame_ReferenceIdeal is the
  reference's generated run with the result dropped; the idealization rewrote nothing, so preserves is trivial; the
  algebraic claim sets the kernel's run (its result array named as the specification of the arguments) beside the
  reference's run (its term read index by index to the same specification).
-/
import proofs.«154010_j90958817394732_1_alg».proof.Defs
import proofs.«154010_j90958817394732_1_alg».proof.Proof.Gen.Kernel
import proofs.«154010_j90958817394732_1_alg».proof.Proof.Gen.Kernel.Skeleton
import proofs.«154010_j90958817394732_1_alg».proof.Proof.Gen.Kernel.Launch
import proofs.«154010_j90958817394732_1_alg».proof.Proof.Gen.Kernel.Points
import proofs.«154010_j90958817394732_1_alg».proof.Proof.Gen.Kernel.Frame
import proofs.«154010_j90958817394732_1_alg».proof.Proof.Gen.KernelIdeal
import proofs.«154010_j90958817394732_1_alg».proof.Proof.Gen.KernelIdeal.Skeleton
import proofs.«154010_j90958817394732_1_alg».proof.Proof.Gen.KernelIdeal.Launch
import proofs.«154010_j90958817394732_1_alg».proof.Proof.Gen.KernelIdeal.Points
import proofs.«154010_j90958817394732_1_alg».proof.Proof.Gen.KernelIdeal.Frame
import proofs.«154010_j90958817394732_1_alg».proof.Proof.Gen.ReferenceIdeal
import proofs.«154010_j90958817394732_1_alg».proof.Proof.Gen.ReferenceIdeal.Run
import proofs.«154010_j90958817394732_1_alg».proof.Proof.Gen.ReferenceIdeal.Read
import proofs.«154010_j90958817394732_1_alg».proof.Proof.Gen.Pre_finite_inputs
import proofs.«154010_j90958817394732_1_alg».proof.Proof.KernelValue
import proofs.«154010_j90958817394732_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result at the specification of the (agreeing) arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
